-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S4096x4096 : Shape := ⟨2, ![4096, 4096]⟩
abbrev S4096 : Shape := ⟨1, ![4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S2x2048x4096 .f32) (main_arg1 : FVec F S4096x4096 .f32) (main_arg2 : FVec F S4096 .f32) (main_arg3 : IVec S4096x4096 1) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S2x2048x4096 : Shape := ⟨3, ![2, 2048, 4096]⟩
abbrev S4096x4096 : Shape := ⟨2, ![4096, 4096]⟩
abbrev S4096 : Shape := ⟨1, ![4096]⟩
abbrev S1x4096 : Shape := ⟨2, ![1, 4096]⟩
abbrev S512x1024 : Shape := ⟨2, ![512, 1024]⟩
abbrev S1x512 : Shape := ⟨2, ![1, 512]⟩
abbrev S512x512 : Shape := ⟨2, ![512, 512]⟩

abbrev nBuf : Space → Nat
  | .hbm => 9
  | .vmem => 11
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .f32⟩
  | .hbm, ⟨2, _⟩ => ⟨S4096, .f32⟩
  | .hbm, ⟨3, _⟩ => ⟨S4096x4096, .i1⟩
  | .hbm, ⟨4, _⟩ => ⟨S4096x4096, .f32⟩
  | .hbm, ⟨5, _⟩ => ⟨S1x4096, .f32⟩
  | .hbm, ⟨6, _⟩ => ⟨S4096x4096, .bf16⟩
  | .hbm, ⟨7, _⟩ => ⟨S4096x4096, .f32⟩
  | .hbm, ⟨8, _⟩ => ⟨S2x2048x4096, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 4], ![false, false, false]⟩

def k0_cond2 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_10 : BitVec 32 := 0#32
  let v19 : BitVec 1 := Scalar.cmpi .ne v18 c0_i32_10
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S2x2048x4096_S4096x4096 : S2x2048x4096.ShapeCasts S4096x4096
  shapeCasts_S4096_S1x4096 : S4096.ShapeCasts S1x4096
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  shapeCasts_S4096x4096_S2x2048x4096 : S4096x4096.ShapeCasts S2x2048x4096
  dot_S512x1024_S512x1024_S512x512_1_1_0_0_n_n_wf : DotDims.WF S512x1024 S512x1024 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x4096.size a
  hwx0_0 : ∀ i : grid0.Coords, EltTy.bits .f32 = 32 ∨ (Rect.block (s := S4096x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x4096.size a
  hwx0_2 : ∀ i : grid0.Coords, EltTy.bits .bf16 = 32 ∨ (Rect.block (s := S4096x4096) S512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S4096x4096.size a
  hwx0_4 : ∀ i : grid0.Coords, EltTy.bits .f32 = 32 ∨ (Rect.block (s := S4096x4096) S512x512.size (cc0_transform_4 i) (hinb0_4 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S4096x4096 : Shape := ⟨2, ![4096, 4096]⟩
abbrev S4096 : Shape := ⟨1, ![4096]⟩
abbrev S1x1x4096 : Shape := ⟨3, ![1, 1, 4096]⟩

abbrev nBuf : Space → Nat
  | .hbm => 10
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .f32⟩
  | .hbm, ⟨2, _⟩ => ⟨S4096, .f32⟩
  | .hbm, ⟨3, _⟩ => ⟨S4096x4096, .i1⟩
  | .hbm, ⟨4, _⟩ => ⟨S4096x4096, .f32⟩
  | .hbm, ⟨5, _⟩ => ⟨S4096x4096, .f32⟩
  | .hbm, ⟨6, _⟩ => ⟨S2x2048x4096, .f32⟩
  | .hbm, ⟨7, _⟩ => ⟨S1x1x4096, .f32⟩
  | .hbm, ⟨8, _⟩ => ⟨S2x2048x4096, .f32⟩
  | .hbm, ⟨9, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S2x2048x4096_0_1_2 : S1x1x4096.BroadcastsInDim S2x2048x4096 (![0, 1, 2] : Fin 3 → Fin S2x2048x4096.rank)
  dot_S2x2048x4096_S4096x4096_S2x2048x4096_2_1_01_0_n_n_wf : DotDims.WF S2x2048x4096 S4096x4096 S2x2048x4096 [2] [1] [0, 1] [0] [] []

variable [Facts₀]

def dot_S2x2048x4096_S4096x4096_S2x2048x4096_2_1_01_0_n_n : DotDims S2x2048x4096 S4096x4096 S2x2048x4096 where
  lhsContracting := [2]
  rhsContracting := [1]
  lhsNonContracting := [0, 1]
  rhsNonContracting := [0]
  lhsBatch := []
  rhsBatch := []
  wf := dot_S2x2048x4096_S4096x4096_S2x2048x4096_2_1_01_0_n_n_wf

class Facts : Prop extends Facts₀ where

variable [Facts]
-- ==== Proof.Pieces.lean ====
/-
  What one run of the body leaves behind, as values, for each of its three control cases (any float instance).

  Every load and store of the body covers its whole buffer, so a buffer's contents after the body are simply the
  last value stored there, and a load that follows a store reads that stored value back:
  * first point of a run of four (reset): the running total ends at  step(x, w, μ, 0)  — the reset's zero block is
    stored, read back, and the first partial product added to it;
  * middle points: the total ends at  step(x, w, μ, total before);
  * last point: the same total, and the output block ends at  total + bias.
  Here step is the accumulation store's value and the last line the final store's value (the printed body's second
  and third stores).
-/
import proofs.«103971_j17849884082261_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem origin : (![0, 0] : Fin 2 → Nat) = fun _ => 0 := funext fun a => by fin_cases a <;> rfl

/-- Reset case: the running total after the body is the accumulation over the zero block. -/
theorem total_reset (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .f32) (harg8 : arg8.IsWhole) (hc0 : cond0_0 i) (hc1 : ¬cond0_1 i) (x0 : Vec F S512x1024 .f32) (x1 : Vec F S512x1024 .f32) (x2 : Vec F S512x1024 .bf16) (x3 : Vec F S1x512 .f32) :
    sout0_A_0 c i arg3 harg3 arg4 harg4 arg5 harg5 arg6 harg6 arg7 harg7 arg8 harg8 hc0 hc1 x0 x1 x2 x3 = k0_pay2 x0 x1 x2 (k0_pay1 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S512x512) origin, View.readCov_unit_zero (S := S512x512) _ origin]
  simp only [View.readAt_eq_ld, harg3.read_unread, harg4.read_unread, harg5.read_unread,
    View.ld_unit_zero (S := S512x1024) origin]

/-- Middle case: the running total after the body is the accumulation over the total before it. -/
theorem total_middle (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .f32) (harg8 : arg8.IsWhole) (hc0 : ¬cond0_0 i) (hc1 : ¬cond0_1 i) (x0 : Vec F S512x1024 .f32) (x1 : Vec F S512x1024 .f32) (x2 : Vec F S512x1024 .bf16) (x3 : Vec F S1x512 .f32) (xs0 : Vec F S512x512 .f32) :
    sout0_B_0 c i arg3 harg3 arg4 harg4 arg5 harg5 arg6 harg6 arg7 harg7 arg8 harg8 hc0 hc1 x0 x1 x2 x3 xs0 = k0_pay2 x0 x1 x2 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero origin]
  simp only [View.readAt_eq_ld, harg3.read_unread, harg4.read_unread, harg5.read_unread, harg8.read_unread,
    View.ld_unit_zero (S := S512x1024) origin, View.ld_unit_zero (S := S512x512) origin]

/-- Last case: the running total likewise, -/
theorem total_last (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .f32) (harg8 : arg8.IsWhole) (hc0 : ¬cond0_0 i) (hc1 : cond0_1 i) (x0 : Vec F S512x1024 .f32) (x1 : Vec F S512x1024 .f32) (x2 : Vec F S512x1024 .bf16) (x3 : Vec F S1x512 .f32) (xs0 : Vec F S512x512 .f32) :
    sout0_C_0 c i arg3 harg3 arg4 harg4 arg5 harg5 arg6 harg6 arg7 harg7 arg8 harg8 hc0 hc1 x0 x1 x2 x3 xs0 = k0_pay2 x0 x1 x2 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero origin]
  simp only [View.readAt_eq_ld, harg3.read_unread, harg4.read_unread, harg5.read_unread, harg8.read_unread,
    View.ld_unit_zero (S := S512x1024) origin, View.ld_unit_zero (S := S512x512) origin]

/-- and the output block is that total plus the bias row. -/
theorem output_last (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .f32) (harg8 : arg8.IsWhole) (hc0 : ¬cond0_0 i) (hc1 : cond0_1 i) (x0 : Vec F S512x1024 .f32) (x1 : Vec F S512x1024 .f32) (x2 : Vec F S512x1024 .bf16) (x3 : Vec F S1x512 .f32) (xs0 : Vec F S512x512 .f32) :
    out0_C_4 c i arg3 harg3 arg4 harg4 arg5 harg5 arg6 harg6 arg7 harg7 arg8 harg8 hc0 hc1 x0 x1 x2 x3 xs0 = k0_pay3 (k0_pay2 x0 x1 x2 xs0) x3 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero origin]
  simp only [View.readAt_eq_ld, harg3.read_unread, harg4.read_unread, harg5.read_unread, harg6.read_unread, harg8.read_unread,
    View.readCov_unit_zero (S := S512x512) _ origin,
    View.ld_unit_zero (S := S512x1024) origin, View.ld_unit_zero (S := S512x512) origin, View.ld_unit_zero (S := S1x512) origin]

end Cert.KernelIdeal.Pieces

end
-- ==== Proof.Payload.lean ====
/-
  What the body's three stores write, entry by entry, over the extended reals.

  * the reset writes zero everywhere;
  * the accumulation writes, at (p, q), the old total there plus the product of row p of the input block with
    row q of the masked weight block: ∑ over the block's 1024 columns of x[p, j] · (w[q, j] · μ[q, j])
    (changing the float format is the identity on extended reals, and the matrix unit's product into a zero
    accumulator is this plain sum: its contraction index has one axis, of extent 1024);
  * the final store writes the total plus the bias row broadcast down the rows.
-/
import proofs.«103971_j17849884082261_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## The block product's operand indices: output (p, q) and contraction column j read x at (p, j), the weight at (q, j) -/

theorem lhs_blk_0 (i : S512x512.Idx) (q : dot_S512x1024_S512x1024_S512x512_1_1_0_0_n_n.contr.Idx) :
    (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
theorem lhs_blk_1 (i : S512x512.Idx) (q : dot_S512x1024_S512x1024_S512x512_1_1_0_0_n_n.contr.Idx) :
    (dot_S512x1024_S512x1024_S512x512_1_1_0_0_n_n.lhsIdx i q 1).val = (q ⟨0, by decide⟩).val :=
  dot_S512x1024_S512x1024_S512x512_1_1_0_0_n_n.lhsIdx_val_of_single rfl i q
theorem rhs_blk_0 (i : S512x512.Idx) (q : dot_S512x1024_S512x1024_S512x512_1_1_0_0_n_n.contr.Idx) :
    (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
theorem rhs_blk_1 (i : S512x512.Idx) (q : dot_S512x1024_S512x1024_S512x512_1_1_0_0_n_n.contr.Idx) :
    (dot_S512x1024_S512x1024_S512x512_1_1_0_0_n_n.rhsIdx i q 1).val = (q ⟨0, by decide⟩).val :=
  dot_S512x1024_S512x1024_S512x512_1_1_0_0_n_n.rhsIdx_val_of_single rfl i q

/-- The matrix unit's product of two [512, 1024] blocks along their columns, into a zero accumulator, at (p, q):
    the sum over the 1024 columns of the two rows' products. -/
theorem blockProduct_apply (a b : FVec Ideal S512x1024 .bf16) (p q : Fin 512) :
    matmul dot_S512x1024_S512x1024_S512x512_1_1_0_0_n_n none a b (constant S512x512 .f32 0x00000000#32) (ix2 p q)
      = ∑ j : Fin 1024, a (ix2 p j) * b (ix2 q j) := by
  simp only [matmul]
  rw [Ideal.matmul_constant_zero_apply, ← Equiv.sum_comp (contrEquiv1 dot_S512x1024_S512x1024_S512x512_1_1_0_0_n_n 1024 rfl rfl).symm]
  refine Finset.sum_congr rfl fun k _ => ?_
  have hk := contrEquiv1_symm_val dot_S512x1024_S512x1024_S512x512_1_1_0_0_n_n 1024 rfl rfl k
  have el : dot_S512x1024_S512x1024_S512x512_1_1_0_0_n_n.lhsIdx (ix2 p q) ((contrEquiv1 dot_S512x1024_S512x1024_S512x512_1_1_0_0_n_n 1024 rfl rfl).symm k) = ix2 p k := funext fun a => Fin.ext (by
    match a with
    | ⟨0, _⟩ => exact lhs_blk_0 _ _
    | ⟨1, _⟩ => exact (lhs_blk_1 _ _).trans hk)
  have er : dot_S512x1024_S512x1024_S512x512_1_1_0_0_n_n.rhsIdx (ix2 p q) ((contrEquiv1 dot_S512x1024_S512x1024_S512x512_1_1_0_0_n_n 1024 rfl rfl).symm k) = ix2 q k := funext fun a => Fin.ext (by
    match a with
    | ⟨0, _⟩ => exact rhs_blk_0 _ _
    | ⟨1, _⟩ => exact (rhs_blk_1 _ _).trans hk)
  rw [el, er]

/-! ## The three stores -/

/-- The reset stores zero at every entry. -/
theorem reset_apply (y : S512x512.Idx) : (k0_pay1 (F := Ideal)) y = 0 := by
  unfold k0_pay1
  rw [shapeCast_self]
  exact Ideal.ofBits_zero_f32

/-- The accumulation: the old total at (p, q) plus the block's partial product there. -/
theorem accumulate_apply (x w : FVec Ideal S512x1024 .f32) (μ : FVec Ideal S512x1024 .bf16) (acc : FVec Ideal S512x512 .f32)
    (p q : Fin 512) :
    k0_pay2 x w μ acc (ix2 p q) = acc (ix2 p q) + ∑ j : Fin 1024, x (ix2 p j) * (w (ix2 q j) * μ (ix2 q j)) := by
  unfold k0_pay2
  simp only [shapeCast_self]
  rw [addf_apply, blockProduct_apply]
  rfl

/-- The final store: the total at (p, q) plus the bias at column q. -/
theorem finish_apply (acc : FVec Ideal S512x512 .f32) (b : FVec Ideal S1x512 .f32) (p q : Fin 512) :
    k0_pay3 acc b (ix2 p q) = acc (ix2 p q) + b (ix2 (0 : Fin 1) q) := by
  unfold k0_pay3
  simp only [shapeCast_self]
  rw [addf_apply]
  refine congrArg (acc (ix2 p q) + ·) ?_
  exact broadcastTo_apply b broadcasts_S1x512_S512x512 (ix2 p q) (ix2 (0 : Fin 1) q) (fun a => match a with
    | ⟨0, _⟩ => by show (0 : ℕ) = if (1 : ℕ) = 1 then 0 else _; rw [if_pos rfl]
    | ⟨1, _⟩ => by show q.val = if (512 : ℕ) = 1 then 0 else q.val; rw [if_neg (by decide)])

end Cert.KernelIdeal.Payload

end
-- ==== Proof.Spec.lean ====
/-
  The mathematics of the masked linear layer, free of any program.

  The layer is  y[r, o] = (∑ d, x[r, d] · (w[o, d] · μ[o, d])) + b[o]  over 4096 contraction columns, with μ the 0/1
  mask.  The kernel reaches the same number in four steps of 1024 columns, adding each block's partial product
  to a running total that starts at zero.  Over the extended reals addition is commutative and associative, so a
  sum over the first `n + k` columns is the sum over the first `n` plus the sum over the next `k`; no finiteness
  is needed.  Arrays are read here at natural-number coordinates (zero outside the array) so that a block's
  coordinates `512·blk + p`, `1024·blk + j` are plain arithmetic.
-/
import Idealize.ShloMosaic.PureOps.Ideal
import Idealize.ShloMosaic.Lib.ValueIdx

noncomputable section

open scoped BigOperators
open Idealize.ShloMosaic Idealize.ShloMosaic.ValueIdx

namespace Cert.MaskedLinear

/-- The square shape every operand of the layer has once the rows are flattened. -/
abbrev Sq : Shape := ⟨2, ![4096, 4096]⟩

/-- A [4096, 4096] array read at natural-number coordinates: its entry inside the array, zero outside. -/
def at2 (A : Sq.Idx → EReal) (r c : ℕ) : EReal :=
  if h : r < 4096 ∧ c < 4096 then A (ix2 ⟨r, h.1⟩ ⟨c, h.2⟩) else 0

theorem at2_of_lt (A : Sq.Idx → EReal) {r c : ℕ} (hr : r < 4096) (hc : c < 4096) :
    at2 A r c = A (ix2 ⟨r, hr⟩ ⟨c, hc⟩) := dif_pos ⟨hr, hc⟩

variable (X W M : Sq.Idx → EReal)

/-- One term of the contraction: row `r` of the input against row `o` of the masked weight, at column `d`. -/
def term (r o d : ℕ) : EReal := at2 X r d * (at2 W o d * at2 M o d)

/-- The partial dot product over the first `n` columns. -/
def dotUpTo (r o n : ℕ) : EReal := ∑ d ∈ Finset.range n, term X W M r o d

theorem dotUpTo_zero (r o : ℕ) : dotUpTo X W M r o 0 = 0 := Finset.sum_range_zero _

/-- Adding the next `b` columns' products to the partial dot product over `n` columns gives the one over `n + b`. -/
theorem dotUpTo_add (r o n b : ℕ) :
    dotUpTo X W M r o n + ∑ j : Fin b, term X W M r o (n + j.val) = dotUpTo X W M r o (n + b) := by
  unfold dotUpTo
  rw [Finset.sum_range_add, Finset.sum_range (fun j => term X W M r o (n + j))]

/-- Over all 4096 columns the partial dot product is the contraction of the two rows. -/
theorem dotUpTo_full (r o : Fin 4096) :
    dotUpTo X W M r.val o.val 4096 = ∑ d : Fin 4096, X (ix2 r d) * (W (ix2 o d) * M (ix2 o d)) := by
  unfold dotUpTo
  rw [Finset.sum_range (fun d => term X W M r.val o.val d)]
  refine Finset.sum_congr rfl fun d _ => ?_
  unfold term
  rw [at2_of_lt X r.isLt d.isLt, at2_of_lt W o.isLt d.isLt, at2_of_lt M o.isLt d.isLt]

/-- A [1, 4096] row read at a natural-number column: its entry inside the row, zero outside. -/
def rowAt (B : (⟨2, ![1, 4096]⟩ : Shape).Idx → EReal) (o : ℕ) : EReal :=
  if h : o < 4096 then B (ix2 (0 : Fin 1) ⟨o, h⟩) else 0

theorem rowAt_of_lt (B : (⟨2, ![1, 4096]⟩ : Shape).Idx → EReal) {o : ℕ} (ho : o < 4096) :
    rowAt B o = B (ix2 (0 : Fin 1) ⟨o, ho⟩) := dif_pos ho

/-- The layer at flattened row `r` and output column `o`: the full contraction plus the bias. -/
def layer (B : (⟨2, ![1, 4096]⟩ : Shape).Idx → EReal) (r o : ℕ) : EReal := dotUpTo X W M r o 4096 + rowAt B o

/-- THE LAYER over the arguments as given: batch `bi`, position `s`, output column `o`. The mask bit enters as the
    number 0 or 1. -/
def linear (x : (⟨3, ![2, 2048, 4096]⟩ : Shape).Idx → EReal) (w : Sq.Idx → EReal) (b : (⟨1, ![4096]⟩ : Shape).Idx → EReal)
    (μ : Sq.Idx → BitVec 1) (bi : Fin 2) (s : Fin 2048) (o : Fin 4096) : EReal :=
  (∑ d : Fin 4096, x (ix3 bi s d) * (w (ix2 o d) * (((μ (ix2 o d)).toNat : ℝ) : EReal))) + b (ix1 o)

end Cert.MaskedLinear

end
-- ==== Proof.Blocks.lean ====
/-
  Where each window's block sits in its array.

  The grid is 8 × 8 × 4, walked with the last axis fastest, so point number t has row block t / 32, column block
  t / 4 mod 8 and contraction block t mod 4.  The input's block at t is rows 512·(t/32) … and columns
  1024·(t mod 4) …; the weight's and the mask's block is rows 512·(t/4 mod 8) … and the same columns; the bias
  block is columns 512·(t/4 mod 8) … of the one bias row; the output block is rows 512·(t/32) … and columns
  512·(t/4 mod 8) ….  Each is an entry-by-entry statement about the array the region finds.
-/
import proofs.«103971_j17849884082261_1_alg».proof.Proof.Gen.KernelIdeal.Frame
import proofs.«103971_j17849884082261_1_alg».proof.Proof.Spec
import Idealize.ShloMosaic.Lib.Pipeline.Value

noncomputable section

open Idealize.ShloMosaic Idealize.ShloMosaic.TcCoe Idealize.SL.Sem Idealize.ShloMosaic.ValueIdx

namespace Cert.KernelIdeal.Blocks

open Cert.KernelIdeal Cert.KernelIdeal.Gen Cert.MaskedLinear

variable (m : (ℓ : Loc nD τ sig) → Buf (Elt Ideal) ℓ)

/-! ## The index maps over the grid, in closed form -/

theorem index_x : ∀ t : Fin cfg0.N, win0_0.index t 0 = t.val / 32 ∧ win0_0.index t 1 = t.val % 4 :=
  (by decide +kernel : ∀ t : Fin grid0.N, win0_0.index t 0 = t.val / 32 ∧ win0_0.index t 1 = t.val % 4)
theorem index_w : ∀ t : Fin cfg0.N, win0_1.index t 0 = t.val / 4 % 8 ∧ win0_1.index t 1 = t.val % 4 :=
  (by decide +kernel : ∀ t : Fin grid0.N, win0_1.index t 0 = t.val / 4 % 8 ∧ win0_1.index t 1 = t.val % 4)
theorem index_μ : ∀ t : Fin cfg0.N, win0_2.index t 0 = t.val / 4 % 8 ∧ win0_2.index t 1 = t.val % 4 :=
  (by decide +kernel : ∀ t : Fin grid0.N, win0_2.index t 0 = t.val / 4 % 8 ∧ win0_2.index t 1 = t.val % 4)
theorem index_b : ∀ t : Fin cfg0.N, win0_3.index t 0 = 0 ∧ win0_3.index t 1 = t.val / 4 % 8 :=
  (by decide +kernel : ∀ t : Fin grid0.N, win0_3.index t 0 = 0 ∧ win0_3.index t 1 = t.val / 4 % 8)
theorem index_o : ∀ t : Fin cfg0.N, win0_4.index t 0 = t.val / 32 ∧ win0_4.index t 1 = t.val / 4 % 8 :=
  (by decide +kernel : ∀ t : Fin grid0.N, win0_4.index t 0 = t.val / 32 ∧ win0_4.index t 1 = t.val / 4 % 8)

/-! ## The arrays the region finds, and the blocks, at their literal types -/

/-- The flattened input, the weight, the 0/1 mask and the bias row as the region finds them. -/
abbrev xarr (c : Dev nD) : Sq.Idx → EReal := V m c main_v0
abbrev warr (c : Dev nD) : Sq.Idx → EReal := V m c main_arg1
abbrev μarr (c : Dev nD) : Sq.Idx → EReal := V m c main_v2
abbrev barr (c : Dev nD) : (⟨2, ![1, 4096]⟩ : Shape).Idx → EReal := V m c main_v1

/-- Their blocks at point `t`. -/
abbrev xblk (c : Dev nD) (t : Fin cfg0.N) : FVec Ideal S512x1024 .f32 := iblk m c 0 t
abbrev wblk (c : Dev nD) (t : Fin cfg0.N) : FVec Ideal S512x1024 .f32 := iblk m c 1 t
abbrev μblk (c : Dev nD) (t : Fin cfg0.N) : FVec Ideal S512x1024 .bf16 := iblk m c 2 t
abbrev bblk (c : Dev nD) (t : Fin cfg0.N) : FVec Ideal S1x512 .f32 := iblk m c 3 t

theorem point_lt (t : Fin cfg0.N) : t.val < 256 := lt_of_lt_of_eq t.isLt (show cfg0.N = 256 from N_0)

theorem xblk_apply (c : Dev nD) (t : Fin cfg0.N) (p : Fin 512) (j : Fin 1024) :
    xblk m c t (ix2 p j) = at2 (xarr m c) (512 * (t.val / 32) + p.val) (1024 * (t.val % 4) + j.val) := by
  have hN := point_lt t
  rw [at2_of_lt _ (by omega) (by omega)]
  unfold xblk iblk
  rw [View.read_apply]
  show V m c main_v0 _ = V m c main_v0 _
  refine congrArg (V m c main_v0) (funext fun a => Fin.ext ?_)
  match a with
  | ⟨0, _⟩ => show win0_0.index t 0 * 512 + 1 * p.val = 512 * (t.val / 32) + p.val; rw [(index_x t).1]; omega
  | ⟨1, _⟩ => show win0_0.index t 1 * 1024 + 1 * j.val = 1024 * (t.val % 4) + j.val; rw [(index_x t).2]; omega

theorem wblk_apply (c : Dev nD) (t : Fin cfg0.N) (q : Fin 512) (j : Fin 1024) :
    wblk m c t (ix2 q j) = at2 (warr m c) (512 * (t.val / 4 % 8) + q.val) (1024 * (t.val % 4) + j.val) := by
  have hN := point_lt t
  rw [at2_of_lt _ (by omega) (by omega)]
  unfold wblk iblk
  rw [View.read_apply]
  show V m c main_arg1 _ = V m c main_arg1 _
  refine congrArg (V m c main_arg1) (funext fun a => Fin.ext ?_)
  match a with
  | ⟨0, _⟩ => show win0_1.index t 0 * 512 + 1 * q.val = 512 * (t.val / 4 % 8) + q.val; rw [(index_w t).1]; omega
  | ⟨1, _⟩ => show win0_1.index t 1 * 1024 + 1 * j.val = 1024 * (t.val % 4) + j.val; rw [(index_w t).2]; omega

theorem μblk_apply (c : Dev nD) (t : Fin cfg0.N) (q : Fin 512) (j : Fin 1024) :
    μblk m c t (ix2 q j) = at2 (μarr m c) (512 * (t.val / 4 % 8) + q.val) (1024 * (t.val % 4) + j.val) := by
  have hN := point_lt t
  rw [at2_of_lt _ (by omega) (by omega)]
  unfold μblk iblk
  rw [View.read_apply]
  show V m c main_v2 _ = V m c main_v2 _
  refine congrArg (V m c main_v2) (funext fun a => Fin.ext ?_)
  match a with
  | ⟨0, _⟩ => show win0_2.index t 0 * 512 + 1 * q.val = 512 * (t.val / 4 % 8) + q.val; rw [(index_μ t).1]; omega
  | ⟨1, _⟩ => show win0_2.index t 1 * 1024 + 1 * j.val = 1024 * (t.val % 4) + j.val; rw [(index_μ t).2]; omega

theorem bblk_apply (c : Dev nD) (t : Fin cfg0.N) (q : Fin 512) :
    bblk m c t (ix2 (0 : Fin 1) q) = rowAt (barr m c) (512 * (t.val / 4 % 8) + q.val) := by
  have hN := point_lt t
  rw [rowAt_of_lt _ (by omega)]
  unfold bblk iblk
  rw [View.read_apply]
  show V m c main_v1 _ = V m c main_v1 _
  refine congrArg (V m c main_v1) (funext fun a => Fin.ext ?_)
  match a with
  | ⟨0, _⟩ => show win0_3.index t 0 * 1 + 1 * 0 = 0; rw [(index_b t).1]
  | ⟨1, _⟩ => show win0_3.index t 1 * 512 + 1 * q.val = 512 * (t.val / 4 % 8) + q.val; rw [(index_b t).2]; omega

end Cert.KernelIdeal.Blocks

end
-- ==== Proof.Accum.lean ====
/-
  The running total, point by point.

  Within a run of four consecutive points (one row block and one column block, the contraction block going
  0, 1, 2, 3) the carried total after the point with contraction block k holds, at entry (p, q), the partial dot
  product of input row 512·rowblk + p with masked weight row 512·colblk + q over the first 1024·(k + 1) columns:
  the first point starts from the zero block, each point adds its block's 1024 columns.  Proved by induction on the
  point's number.  At the last point of a run the output block holds the full dot product plus the bias.
-/
import proofs.«103971_j17849884082261_1_alg».proof.Proof.Pieces
import proofs.«103971_j17849884082261_1_alg».proof.Proof.Payload
import proofs.«103971_j17849884082261_1_alg».proof.Proof.Blocks

noncomputable section

open scoped BigOperators
open Idealize.ShloMosaic Idealize.ShloMosaic.TcCoe Idealize.SL.Sem Idealize.ShloMosaic.ValueIdx

namespace Cert.KernelIdeal.Accum

open Cert.KernelIdeal Cert.KernelIdeal.Gen Cert.MaskedLinear Cert.KernelIdeal.Blocks Cert.KernelIdeal.Payload Cert.KernelIdeal.Pieces

variable (m : (ℓ : Loc nD τ sig) → Buf (Elt Ideal) ℓ)

/-- The partial dot product the total at point number `n`, entry (p, q), is compared with, over `cols` columns. -/
abbrev partialAt (c : Dev nD) (n : ℕ) (p q : Fin 512) (cols : ℕ) : EReal :=
  dotUpTo (xarr m c) (warr m c) (μarr m c) (512 * (n / 32) + p.val) (512 * (n / 4 % 8) + q.val) cols

/-- One point's step: a total that holds the partial dot product over the columns before this point's block
    holds, after the accumulation store, the one over the columns through this block. -/
theorem step (c : Dev nD) (t : Fin cfg0.N) (acc : FVec Ideal S512x512 .f32) (p q : Fin 512)
    (hacc : acc (ix2 p q) = partialAt m c t.val p q (1024 * (t.val % 4))) :
    k0_pay2 (F := Ideal) (xblk m c t) (wblk m c t) (μblk m c t) acc (ix2 p q) = partialAt m c t.val p q (1024 * (t.val % 4 + 1)) := by
  refine (accumulate_apply (xblk m c t) (wblk m c t) (μblk m c t) acc p q).trans ?_
  rw [hacc]
  have e : ∀ j : Fin 1024, xblk m c t (ix2 p j) * (wblk m c t (ix2 q j) * μblk m c t (ix2 q j))
      = term (xarr m c) (warr m c) (μarr m c) (512 * (t.val / 32) + p.val) (512 * (t.val / 4 % 8) + q.val) (1024 * (t.val % 4) + j.val) := fun j => by
    rw [xblk_apply m c t p j, wblk_apply m c t q j, μblk_apply m c t q j]; rfl
  rw [Finset.sum_congr rfl fun j _ => e j]
  exact dotUpTo_add (xarr m c) (warr m c) (μarr m c) _ _ (1024 * (t.val % 4)) 1024

/-- THE INVARIANT: after point number `n` the carried total holds, at (p, q), the partial dot product through
    that point's contraction block. -/
theorem total_at (c : Dev nD) : ∀ (n : ℕ) (h : n < cfg0.N) (p q : Fin 512),
    (outsAt0 m c n h).2 (ix2 p q) = partialAt m c n p q (1024 * (n % 4 + 1))
  | 0, h, p, q => by
    rw [outsAt0_A m c ⟨0, h⟩ rfl (by show ¬0 % 4 = 3; decide)]
    dsimp only
    rw [total_reset]
    refine step m c ⟨0, h⟩ (k0_pay1 (F := Ideal)) p q ?_
    rw [reset_apply]
    exact (dotUpTo_zero _ _ _ _ _).symm
  | n + 1, h, p, q => by
    have hN : n + 1 < 256 := lt_of_lt_of_eq h (show cfg0.N = 256 from N_0)
    by_cases h0 : (n + 1) % 4 = 0
    · have h1 : ¬(n + 1) % 4 = 3 := by omega
      rw [outsAt0_A m c ⟨n + 1, h⟩ h0 h1]
      dsimp only
      rw [total_reset]
      refine step m c ⟨n + 1, h⟩ (k0_pay1 (F := Ideal)) p q ?_
      rw [reset_apply]
      show (0 : EReal) = partialAt m c (n + 1) p q (1024 * ((n + 1) % 4))
      rw [h0]
      exact (dotUpTo_zero _ _ _ _ _).symm
    · have ih := total_at c n (Nat.lt_of_succ_lt h) p q
      have e1 : (n + 1) / 32 = n / 32 := by omega
      have e2 : (n + 1) / 4 % 8 = n / 4 % 8 := by omega
      have e3 : (n + 1) % 4 = n % 4 + 1 := by omega
      have hprev : (outsAt0 m c n (Nat.lt_of_succ_lt h)).2 (ix2 p q) = partialAt m c (n + 1) p q (1024 * ((n + 1) % 4)) := by
        rw [ih]; show dotUpTo _ _ _ _ _ _ = dotUpTo _ _ _ _ _ _; rw [e1, e2, e3]
      by_cases h1 : (n + 1) % 4 = 3
      · rw [outsAt0_C m c ⟨n + 1, h⟩ h0 h1]
        dsimp only
        rw [total_last]
        exact step m c ⟨n + 1, h⟩ _ p q hprev
      · rw [outsAt0_B m c ⟨n + 1, h⟩ h0 h1]
        dsimp only
        rw [total_middle]
        exact step m c ⟨n + 1, h⟩ _ p q hprev

/-- At the last point of a run the output block holds the full dot product plus the bias. -/
theorem output_at (c : Dev nD) (t : Fin cfg0.N) (h3 : t.val % 4 = 3) (p q : Fin 512) :
    (outsAt0 m c t.val t.isLt).1 (ix2 p q)
      = layer (xarr m c) (warr m c) (μarr m c) (barr m c) (512 * (t.val / 32) + p.val) (512 * (t.val / 4 % 8) + q.val) := by
  have hN := point_lt t
  have h0 : ¬t.val % 4 = 0 := by omega
  have hpos : t.val - 1 + 1 = t.val := by omega
  rw [outsAt0_C m c t h0 h3]
  dsimp only
  rw [output_last]
  refine (finish_apply _ (bblk m c t) p q).trans ?_
  unfold layer
  rw [bblk_apply m c t q]
  refine congrArg (· + rowAt (barr m c) (512 * (t.val / 4 % 8) + q.val)) ?_
  have ih := total_at m c (t.val - 1) (Nat.lt_of_le_of_lt (Nat.sub_le _ _) t.isLt) p q
  have e1 : (t.val - 1) / 32 = t.val / 32 := by omega
  have e2 : (t.val - 1) / 4 % 8 = t.val / 4 % 8 := by omega
  have e3 : (t.val - 1) % 4 + 1 = t.val % 4 := by omega
  have hprev : (outsAt0 m c (t.val - 1) (Nat.lt_of_le_of_lt (Nat.sub_le _ _) t.isLt)).2 (ix2 p q) = partialAt m c t.val p q (1024 * (t.val % 4)) := by
    rw [ih]; show dotUpTo _ _ _ _ _ _ = dotUpTo _ _ _ _ _ _; rw [e1, e2, e3]
  refine (step m c t _ p q hprev).trans ?_
  show dotUpTo _ _ _ _ _ _ = dotUpTo _ _ _ _ _ _
  rw [h3]

end Cert.KernelIdeal.Accum

end
-- ==== Proof.OutArray.lean ====
/-
  From blocks to the output array.

  The output block is written back only at the last point of each run of four, and there it holds, at (p, q), the
  layer at row 512·rowblk + p and column 512·colblk + q — which is the array-wide function `layerArray` read through
  that block.  The 64 blocks written back tile the [4096, 4096] array (entry (r, o) lies in the block of the point
  numbered 32·(r / 512) + 4·(o / 512) + 3), so after the region the whole array is `layerArray`.
-/
import proofs.«103971_j17849884082261_1_alg».proof.Proof.Accum

noncomputable section

open Idealize.ShloMosaic Idealize.ShloMosaic.TcCoe Idealize.SL.Sem Idealize.ShloMosaic.ValueIdx
open Idealize.ShloMosaic.Pipeline (Dat)

namespace Cert.KernelIdeal.OutArray

open Cert.KernelIdeal Cert.KernelIdeal.Gen Cert.MaskedLinear Cert.KernelIdeal.Blocks Cert.KernelIdeal.Accum

variable (m : (ℓ : Loc nD τ sig) → Buf (Elt Ideal) ℓ)

/-- The layer as one function of the output array's index, over the arrays the region finds. -/
abbrev layerArray (c : Dev nD) : Sq.Idx → EReal := fun i =>
  layer (xarr m c) (warr m c) (μarr m c) (barr m c) (i 0).val (i 1).val

/-- What a write-back point writes is its block of `layerArray`. -/
theorem flushed_eq (c : Dev nD) (t : Fin cfg0.N) (hf : (cfg0.win 4).flush t = true) :
    (dats m 0 c).flushed 4 t = ((cfg0.win 4).blk t).view.read (Elt Ideal) (layerArray m c) := by
  have h3 : t.val % 4 = 3 := (flush0_4 t).mp hf
  show (cfg0.win 4).cut (grid0.coords t) ((dats m 0 c).after 4 t) = _
  rw [after0_4]
  funext j
  obtain ⟨p, q, rfl⟩ : ∃ (p : Fin 512) (q : Fin 512), j = ix2 p q := ⟨j 0, j 1, eq_ix2 j⟩
  show (outsAt0 m c t.val t.isLt).1 (ix2 p q) = layerArray m c (((cfg0.win 4).blk t).view.emb (ix2 p q))
  rw [output_at m c t h3 p q]
  show _ = layer _ _ _ _ (win0_4.index t 0 * 512 + 1 * p.val) (win0_4.index t 1 * 512 + 1 * q.val)
  rw [(index_o t).1, (index_o t).2]
  congr 1 <;> omega

/-- An index of the array is in point `t`'s block iff each coordinate is in the block's range on its axis. -/
theorem mem_block (t : Fin cfg0.N) (i : S4096x4096.Idx) :
    i ∈ ((cfg0.win 4).blk t).view.set ↔ ∀ a : Fin 2, win0_4.index t a * S512x512.size a ≤ (i a).val ∧ (i a).val < win0_4.index t a * S512x512.size a + S512x512.size a := by
  show i ∈ ((View.whole main_v3).slice (win0_4.rect t)).set ↔ _
  rw [View.set_slice_whole, Rect.mem_set_unit]
  exact Iff.rfl

/-- THE ARRAY after the region is `layerArray`. -/
theorem final (c : Dev nD) : (dats m 0 c).arrAt 4 cfg0.N = layerArray m c :=
  (dats m 0 c).arrAt_eq_of_cover 4 (layerArray m c) (flushed_eq m c) fun i => by
    have hi0 : (i 0).val < 4096 := (i 0).isLt
    have hi1 : (i 1).val < 4096 := (i 1).isLt
    have hN : cfg0.N = 256 := N_0
    let t : Fin cfg0.N := ⟨32 * ((i 0).val / 512) + 4 * ((i 1).val / 512) + 3, by omega⟩
    have ht : t.val = 32 * ((i 0).val / 512) + 4 * ((i 1).val / 512) + 3 := rfl
    refine ⟨t, (flush0_4 t).mpr (by omega), ?_⟩
    rw [mem_block]
    intro a
    match a with
    | ⟨0, _⟩ =>
      show win0_4.index t 0 * 512 ≤ (i 0).val ∧ (i 0).val < win0_4.index t 0 * 512 + 512
      rw [(index_o t).1]; omega
    | ⟨1, _⟩ =>
      show win0_4.index t 1 * 512 ≤ (i 1).val ∧ (i 1).val < win0_4.index t 1 * 512 + 512
      rw [(index_o t).2]; omega

end Cert.KernelIdeal.OutArray

end
-- ==== Proof.KernelRun.lean ====
/-
  The kernel program's run, read as the layer of its arguments.

  Around the region the program only re-lays data: the input [2, 2048, 4096] is viewed as [4096, 4096] (row
  2048·batch + position), the bias [4096] as one row [1, 4096], the Boolean mask becomes the numbers 0 / 1, and the
  region's [4096, 4096] result is viewed back as [2, 2048, 4096].  A reshape keeps the row-major position, so
  entry (batch, position, o) of the result is entry (2048·batch + position, o) of the region's array, which is the
  full contraction of that input row with masked weight row o, plus bias o.
-/
import proofs.«103971_j17849884082261_1_alg».proof.Proof.OutArray
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.KernelRun

open Cert.KernelIdeal Cert.KernelIdeal.Gen Cert.MaskedLinear Cert.KernelIdeal.Blocks Cert.KernelIdeal.Accum Cert.KernelIdeal.OutArray

variable (m : (ℓ : Loc nD τ sig) → Buf (Elt Ideal) ℓ) (ρ : Dev nD → PrngReg)

/-! ## What the region finds: the arguments, re-laid -/

theorem xarr_eq (c : Dev nD) :
    xarr m c = shapeCast S4096x4096 (m ((c : Thread nD τ).loc main_arg0)) shapeCasts_S2x2048x4096_S4096x4096 := by
  show StableHlo.after hostOps0 (fun b => m (c, b)) (Proc.devRef .tc main_v0) = _
  after_results
  rfl

theorem barr_eq (c : Dev nD) :
    barr m c = shapeCast S1x4096 (m ((c : Thread nD τ).loc main_arg2)) shapeCasts_S4096_S1x4096 := by
  show StableHlo.after hostOps0 (fun b => m (c, b)) (Proc.devRef .tc main_v1) = _
  after_results
  rfl

theorem μarr_eq (c : Dev nD) :
    μarr m c = uitofp (F := Ideal) .bf16 (m ((c : Thread nD τ).loc main_arg3)) := by
  show StableHlo.after hostOps0 (fun b => m (c, b)) (Proc.devRef .tc main_v2) = _
  after_results

/-- Row 2048·batch + position of the flattened input is the input's (batch, position) row. -/
theorem xarr_at (c : Dev nD) (bi : Fin 2) (s : Fin 2048) (d : Fin 4096) (hr : 2048 * bi.val + s.val < 4096) :
    xarr m c (ix2 ⟨2048 * bi.val + s.val, hr⟩ d) = (m ((c : Thread nD τ).loc main_arg0)) (ix3 bi s d) := by
  rw [xarr_eq]
  refine shapeCast_apply _ shapeCasts_S2x2048x4096_S4096x4096 (ix2 ⟨2048 * bi.val + s.val, hr⟩ d) (ix3 bi s d) ?_
  rw [Shape.rowMajor_val_two, Shape.rowMajor_val_three]
  show (bi.val * 2048 + s.val) * 4096 + d.val = (2048 * bi.val + s.val) * 4096 + d.val
  ring

/-- The mask array holds the mask bit as a number. -/
theorem μarr_at (c : Dev nD) (o d : Fin 4096) :
    μarr m c (ix2 o d) = ((((m ((c : Thread nD τ).loc main_arg3)) (ix2 o d)).toNat : ℝ) : EReal) := by
  rw [μarr_eq]; rfl

/-- The weight reaches the region as given. -/
theorem warr_at (c : Dev nD) (o d : Fin 4096) :
    warr m c (ix2 o d) = ((m ((c : Thread nD τ).loc main_arg1)) : Sq.Idx → EReal) (ix2 o d) :=
  congrFun (V_main_arg1 m c) _

/-- The bias row holds the bias. -/
theorem barr_at (c : Dev nD) (o : Fin 4096) :
    barr m c (ix2 (0 : Fin 1) o) = (m ((c : Thread nD τ).loc main_arg2)) (ix1 o) := by
  rw [barr_eq]
  refine shapeCast_apply _ shapeCasts_S4096_S1x4096 (ix2 (0 : Fin 1) o) (ix1 o) ?_
  rw [Shape.rowMajor_val_two, Shape.rowMajor_val_one]
  show o.val = 0 * 4096 + o.val
  omega

/-! ## The result -/

/-- The program's result: the layer of its four arguments. -/
abbrev result (c : Dev nD) : S2x2048x4096.Idx → EReal := fun i =>
  linear (m ((c : Thread nD τ).loc main_arg0)) (m ((c : Thread nD τ).loc main_arg1)) (m ((c : Thread nD τ).loc main_arg2)) (m ((c : Thread nD τ).loc main_arg3)) (i 0) (i 1) (i 2)

/-- After the region the host's last line views the region's array back as [2, 2048, 4096]. -/
theorem tail_eq (c : Dev nD) :
    Pipeline.afterTail₀ cfgs (dats m) 0 (V0 m) [hostOps1] c main_v4
      = shapeCast S2x2048x4096 (layerArray m c) shapeCasts_S4096x4096_S2x2048x4096 := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3)
      = layerArray m c :=
    (Pipeline.withArrays_arr spec0 launch0.win.arr_inj c _ _ 4).trans (final m c)
  rw [e]
  rfl

/-- That view, entry by entry, is the layer of the arguments. -/
theorem tail_is_result (c : Dev nD) :
    shapeCast S2x2048x4096 (layerArray m c) shapeCasts_S4096x4096_S2x2048x4096 = result m c := by
  funext i
  obtain ⟨bi, s, o, rfl⟩ : ∃ (bi : Fin 2) (s : Fin 2048) (o : Fin 4096), i = ix3 bi s o := ⟨i 0, i 1, i 2, eq_ix3 i⟩
  have hr : 2048 * bi.val + s.val < 4096 := by have := bi.isLt; have := s.isLt; omega
  refine (shapeCast_apply (layerArray m c) shapeCasts_S4096x4096_S2x2048x4096 (ix3 bi s o) (ix2 ⟨2048 * bi.val + s.val, hr⟩ o) ?_).trans ?_
  · rw [Shape.rowMajor_val_two, Shape.rowMajor_val_three]
    show (2048 * bi.val + s.val) * 4096 + o.val = (bi.val * 2048 + s.val) * 4096 + o.val
    ring
  · show layer (xarr m c) (warr m c) (μarr m c) (barr m c) (2048 * bi.val + s.val) o.val = linear _ _ _ _ bi s o
    unfold layer linear
    refine congrArg₂ (· + ·) ((dotUpTo_full (xarr m c) (warr m c) (μarr m c) ⟨2048 * bi.val + s.val, hr⟩ o).trans ?_)
      ((rowAt_of_lt (barr m c) o.isLt).trans (barr_at m c o))
    refine Finset.sum_congr rfl fun d _ => ?_
    rw [xarr_at m c bi s d hr, μarr_at m c o d, warr_at m c o d]

/-- THE RUN: every weakly fair execution of the kernel program ends with its result at the layer of the
    arguments, and the arguments unchanged. -/
theorem run : θ_run defs (onTc (τ := τ) (main (F := Ideal))) ⟨m, fun _ => 0, ρ⟩ fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v4 (Pipeline.mem_restRefs_of main_v4 (by decide) (by decide))).trans ((tail_eq m c).trans (tail_is_result m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KernelRun

end
-- ==== Proof.RefValue.lean ====
/-
  The reference computes the layer directly.

  Its result at (batch, position, o) is the contraction over all 4096 columns of the input row with the weight row
  o, each weight entry multiplied by the mask bit read as the number 0 or 1, plus the bias at o: the composed index
  functions of the contraction and of the two bias broadcasts are (batch, position, d), (o, d) and o.
-/
import proofs.«103971_j17849884082261_1_alg».proof.Proof.Gen.ReferenceIdeal.Read
import proofs.«103971_j17849884082261_1_alg».proof.Proof.Spec

noncomputable section

open scoped BigOperators
open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.MaskedLinear

theorem reference_is_layer (x0 : (⟨S2x2048x4096, .f32⟩ : BufTy).Contents (Elt Ideal)) (x1 : (⟨S4096x4096, .f32⟩ : BufTy).Contents (Elt Ideal))
    (x2 : (⟨S4096, .f32⟩ : BufTy).Contents (Elt Ideal)) (x3 : (⟨S4096x4096, .i1⟩ : BufTy).Contents (Elt Ideal)) :
    val_main_v5 (F := Ideal) x0 x1 x2 x3 = fun i => linear x0 x1 x2 x3 (i 0) (i 1) (i 2) := by
  funext i
  obtain ⟨bi, s, o, rfl⟩ : ∃ (bi : Fin 2) (s : Fin 2048) (o : Fin 4096), i = ix3 bi s o := ⟨i 0, i 1, i 2, eq_ix3 i⟩
  have el : ∀ k : Fin 4096, lidx_main_v2 (ix3 bi s o) k = ix3 bi s k := fun k => funext fun a => by
    match a with | ⟨0, _⟩ => rfl | ⟨1, _⟩ => rfl | ⟨2, _⟩ => rfl
  have er : ∀ k : Fin 4096, ridx_main_v2 (ix3 bi s o) k = ix2 o k := fun k => funext fun a => by
    match a with | ⟨0, _⟩ => rfl | ⟨1, _⟩ => rfl
  have eb : idx_main_v3 (idx_main_v4 (ix3 bi s o)) = ix1 o := funext fun a => by
    match a with | ⟨0, _⟩ => rfl
  rw [val_main_v5_apply, val_main_v2_apply, val_main_v4_apply, val_main_v3_apply]
  simp only [el, er, eb, val_main_v1_apply, val_main_v0_apply]
  rfl

end Cert.ReferenceIdeal.RefValue

end
-- ==== Proof.lean ====
/-
  A masked ("pseudo block-sparse") linear layer:  y[b, s, o] = ∑_d x[b, s, d] · (w[o, d] · μ[o, d]) + bias[o],  μ a 0/1 mask.

  The kernel flattens the input to 4096 rows and tiles the product 512 × 512 × 1024: for each output tile it
  walks the four contraction blocks, keeping a running total that it zeroes at the first block and to which it adds
  each block's partial product (inputs and masked weights passed through a narrower float format, which is the
  identity on extended reals); after the fourth block it adds the bias and writes the tile.  The reference multiplies
  the weight by the mask and contracts all 4096 columns at once.

  Over the extended reals both are the same number: addition there is commutative and associative, so the contraction
  over 4096 columns splits into the four blocks' sums added one after another to zero, and the mask bit is the same
  number 0 or 1 whichever float format it is converted to.  No finiteness is used.

  The modules: Spec (partial dot products and how they extend), Payload (what the body's stores write, entry by
  entry), Pieces (what one run of the body leaves, per control case), Blocks (where each block sits in its array),
  Accum (the running total, by induction on the grid point), OutArray (the written-back tiles cover the array),
  KernelRun (the host's re-layings around the region; the kernel program's result is the layer), RefValue (the
  reference's result is the layer).  Below: the three frames, the empty idealization ledger, and the equivalence.
-/
import proofs.«103971_j17849884082261_1_alg».proof.Defs
import proofs.«103971_j17849884082261_1_alg».proof.Proof.Gen.Kernel
import proofs.«103971_j17849884082261_1_alg».proof.Proof.Gen.Kernel.Skeleton
import proofs.«103971_j17849884082261_1_alg».proof.Proof.Gen.Kernel.Launch
import proofs.«103971_j17849884082261_1_alg».proof.Proof.Gen.Kernel.Points
import proofs.«103971_j17849884082261_1_alg».proof.Proof.Gen.Kernel.Frame
import proofs.«103971_j17849884082261_1_alg».proof.Proof.Gen.KernelIdeal
import proofs.«103971_j17849884082261_1_alg».proof.Proof.Gen.KernelIdeal.Skeleton
import proofs.«103971_j17849884082261_1_alg».proof.Proof.Gen.KernelIdeal.Launch
import proofs.«103971_j17849884082261_1_alg».proof.Proof.Gen.KernelIdeal.Points
import proofs.«103971_j17849884082261_1_alg».proof.Proof.Gen.KernelIdeal.Frame
import proofs.«103971_j17849884082261_1_alg».proof.Proof.Gen.ReferenceIdeal
import proofs.«103971_j17849884082261_1_alg».proof.Proof.Gen.ReferenceIdeal.Run
import proofs.«103971_j17849884082261_1_alg».proof.Proof.Gen.ReferenceIdeal.Read
import proofs.«103971_j17849884082261_1_alg».proof.Proof.Gen.Pre_finite_inputs
import proofs.«103971_j17849884082261_1_alg».proof.Proof.KernelRun
import proofs.«103971_j17849884082261_1_alg».proof.Proof.RefValue
import Idealize.ShloMosaic.Adequacy
import Idealize.ShloMosaic.Init

noncomputable section

namespace Cert.Proof

open Idealize.ShloMosaic Idealize.SL.Sem

/-- The word-level kernel program terminates without fault and leaves its arguments as they were. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the four arguments both programs end with the layer of those arguments. -/
theorem algebraic : Cert.algebraic_KernelIdeal_ReferenceIdeal := by
  intro m ρ m' ρ' _ hagree
  refine ⟨fun c => Cert.KernelIdeal.KernelRun.result m c, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.reference_is_layer,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
